-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000x2 : Shape := ⟨2, ![600000, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S600000x2 : S_.BroadcastsInDim S600000x2 (![] : Fin 0 → Fin S600000x2.rank)
  reducesTo_S600000x2_S_d0_1 : S600000x2.ReducesTo [0, 1] S_

variable [Facts]

def fn {F : FTy → Type} [FloatOps F] (main_arg0 : FVec F S100000x128 .f32) (main_arg1 : FVec F S600000x128 .f32) (main_arg2 : IVec S600000x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_c_2 : IVec S_ 32 := constantI S_ 32 0#32
  let main_v9 : IVec S600000x2 32 := broadcastInDim S600000x2 ![] bcast_S_S600000x2 main_c_2
  let main_v10 : IVec S600000x2 1 := cmpi .sge main_arg2 main_v9
  let main_c_3 : IVec S_ 32 := constantI S_ 32 100000#32
  let main_v11 : IVec S600000x2 32 := broadcastInDim S600000x2 ![] bcast_S_S600000x2 main_c_3
  let main_v12 : IVec S600000x2 1 := cmpi .slt main_arg2 main_v11
  let main_v13 : IVec S600000x2 1 := andi main_v10 main_v12
  let main_c_4 : IVec S_ 1 := constantI S_ 1 1#1
  let main_v14 : IVec S_ 1 := (fun x v => Host.reduce IntOp.andi x v reducesTo_S600000x2_S_d0_1 h_S_) main_v13 main_c_4
  let main_v15 : IVec S_ 1 := andi main_v8 main_v14
  main_v15
-- ==== Kernel.lean ====
abbrev S100000x128 : Shape := ⟨2, ![100000, 128]⟩
abbrev S600000x128 : Shape := ⟨2, ![600000, 128]⟩
abbrev S600000x2 : Shape := ⟨2, ![600000, 2]⟩
abbrev S600000x1 : Shape := ⟨2, ![600000, 1]⟩
abbrev S600000 : Shape := ⟨1, ![600000]⟩
abbrev S_ : Shape := ⟨0, ![]⟩
abbrev S1 : Shape := ⟨1, ![1]⟩
abbrev S1x1 : Shape := ⟨2, ![1, 1]⟩
abbrev S2x600000x128 : Shape := ⟨3, ![2, 600000, 128]⟩
abbrev S8000x128 : Shape := ⟨2, ![8000, 128]⟩
abbrev S2x8000x128 : Shape := ⟨3, ![2, 8000, 128]⟩
abbrev S1x8000x128 : Shape := ⟨3, ![1, 8000, 128]⟩
abbrev S1200000x128 : Shape := ⟨2, ![1200000, 128]⟩
abbrev S1200000 : Shape := ⟨1, ![1200000]⟩
abbrev S1200000x1 : Shape := ⟨2, ![1200000, 1]⟩

abbrev nBuf : Space → Nat
  | .hbm => 60
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000x2, .i32⟩
  | .hbm, ⟨3, _⟩ => ⟨S600000x1, .i32⟩
  | .hbm, ⟨4, _⟩ => ⟨S600000, .i32⟩
  | .hbm, ⟨5, _⟩ => ⟨S600000x1, .i32⟩
  | .hbm, ⟨6, _⟩ => ⟨S600000, .i32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S1, .i32⟩
  | .hbm, ⟨16, _⟩ => ⟨S_, .i32⟩
  | .hbm, ⟨17, _⟩ => ⟨S600000x1, .i32⟩
  | .hbm, ⟨18, _⟩ => ⟨S600000x1, .i1⟩
  | .hbm, ⟨19, _⟩ => ⟨S1x1, .i32⟩
  | .hbm, ⟨20, _⟩ => ⟨S600000x1, .i32⟩
  | .hbm, ⟨21, _⟩ => ⟨S600000x1, .i1⟩
  | .hbm, ⟨22, _⟩ => ⟨S600000x1, .i1⟩
  | .hbm, ⟨23, _⟩ => ⟨S_, .i1⟩
  | .hbm, ⟨24, _⟩ => ⟨S600000, .i1⟩
  | .hbm, ⟨25, _⟩ => ⟨S600000x128, .f32⟩
  | .hbm, ⟨26, _⟩ => ⟨S600000x128, .i1⟩
  | .hbm, ⟨27, _⟩ => ⟨S_, .f32⟩
  | .hbm, ⟨28, _⟩ => ⟨S600000x128, .f32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S1, .i32⟩
  | .hbm, ⟨39, _⟩ => ⟨S_, .i32⟩
  | .hbm, ⟨40, _⟩ => ⟨S600000x1, .i32⟩
  | .hbm, ⟨41, _⟩ => ⟨S600000x1, .i1⟩
  | .hbm, ⟨42, _⟩ => ⟨S1x1, .i32⟩
  | .hbm, ⟨43, _⟩ => ⟨S600000x1, .i32⟩
  | .hbm, ⟨44, _⟩ => ⟨S600000x1, .i1⟩
  | .hbm, ⟨45, _⟩ => ⟨S600000x1, .i1⟩
  | .hbm, ⟨46, _⟩ => ⟨S_, .i1⟩
  | .hbm, ⟨47, _⟩ => ⟨S600000, .i1⟩
  | .hbm, ⟨48, _⟩ => ⟨S600000x128, .f32⟩
  | .hbm, ⟨49, _⟩ => ⟨S600000x128, .i1⟩
  | .hbm, ⟨50, _⟩ => ⟨S_, .f32⟩
  | .hbm, ⟨51, _⟩ => ⟨S600000x128, .f32⟩
  | .hbm, ⟨52, _⟩ => ⟨S600000x128, .f32⟩
  | .hbm, ⟨53, _⟩ => ⟨S2x600000x128, .f32⟩
  | .hbm, ⟨54, _⟩ => ⟨S1200000x128, .f32⟩
  | .hbm, ⟨55, _⟩ => ⟨S1200000, .i32⟩
  | .hbm, ⟨56, _⟩ => ⟨S_, .f32⟩
  | .hbm, ⟨57, _⟩ => ⟨S100000x128, .f32⟩
  | .hbm, ⟨58, _⟩ => ⟨S1200000x1, .i32⟩
  | .hbm, ⟨59, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S2x8000x128, .f32⟩
  | .local _ .vmem, ⟨7, _⟩ => ⟨S2x8000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_cst : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S2x8000x128_S1x8000x128_0_0_0 : ∀ a, (![0, 0, 0] : Fin 3 → Nat) a + S1x8000x128.size a ≤ S2x8000x128.size a
  h_S1x8000x128 : 0 < S1x8000x128.numel
  shapeCasts_S1x8000x128_S8000x128 : S1x8000x128.ShapeCasts S8000x128
  shapeCasts_S8000x128_S1x8000x128 : S8000x128.ShapeCasts S1x8000x128
  inb_S2x8000x128_S1x8000x128_1_0_0 : ∀ a, (![1, 0, 0] : Fin 3 → Nat) a + S1x8000x128.size a ≤ S2x8000x128.size a
  shapeCasts_S2x600000x128_S1200000x128 : S2x600000x128.ShapeCasts S1200000x128
  concatenates_S600000_S600000_S1200000_d0 : Shape.Concatenates [S600000, S600000] S1200000 0
  bcast_S_S100000x128 : S_.BroadcastsInDim S100000x128 (![] : Fin 0 → Fin S100000x128.rank)
  bcast_S1200000_S1200000x1_0 : S1200000.BroadcastsInDim S1200000x1 (![0] : Fin 1 → Fin S1200000x1.rank)
  gather_S100000x128_S600000x1_S600000x128_1_0_n_n_0_1_1128_wf : GatherDims.WF S100000x128 S600000x1 S600000x128 [1] [0] [] [0] [] 1 ![1, 128]
  scatter_S100000x128_S1200000x1_S1200000x128_1_0_0_1_wf : ScatterDims.WF S100000x128 S1200000x1 S1200000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .f32 = 32 ∨ (Rect.block (s := S600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S600000x128.size a
  hwx0_1 : ∀ i : grid0.Coords, EltTy.bits .f32 = 32 ∨ (Rect.block (s := S600000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S600000x128.size a
  hwx0_2 : ∀ i : grid0.Coords, EltTy.bits .f32 = 32 ∨ (Rect.block (s := S600000x128) S8000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x8000x128.size a ≤ S2x600000x128.size a
  hwx0_3 : ∀ i : grid0.Coords, EltTy.bits .f32 = 32 ∨ (Rect.block (s := S2x600000x128) S2x8000x128.size (cc0_transform_3 i) (hinb0_3 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S600000x2 : Shape := ⟨2, ![600000, 2]⟩
abbrev S600000x1 : Shape := ⟨2, ![600000, 1]⟩
abbrev S600000 : Shape := ⟨1, ![600000]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000x2, .i32⟩
  | .hbm, ⟨3, _⟩ => ⟨S600000x1, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S600000x128, .f32⟩
  | .hbm, ⟨15, _⟩ => ⟨S600000x1, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S600000x128, .f32⟩
  | .hbm, ⟨27, _⟩ => ⟨S600000x1, .i32⟩
  | .hbm, ⟨28, _⟩ => ⟨S600000, .i32⟩
  | .hbm, ⟨29, _⟩ => ⟨S_, .f32⟩
  | .hbm, ⟨30, _⟩ => ⟨S100000x128, .f32⟩
  | .hbm, ⟨31, _⟩ => ⟨S600000x1, .i32⟩
  | .hbm, ⟨32, _⟩ => ⟨S100000x128, .f32⟩
  | .hbm, ⟨33, _⟩ => ⟨S600000x1, .i32⟩
  | .hbm, ⟨34, _⟩ => ⟨S600000, .i32⟩
  | .hbm, ⟨35, _⟩ => ⟨S_, .f32⟩
  | .hbm, ⟨36, _⟩ => ⟨S100000x128, .f32⟩
  | .hbm, ⟨37, _⟩ => ⟨S600000x1, .i32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S600000x2_S600000x1_0_1 : S600000x2.Slices ![0, 1] S600000x1
  bcast_S_S100000x128 : S_.BroadcastsInDim S100000x128 (![] : Fin 0 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.InRange.lean ====
/-
  What the index-range conjunct of the precondition gives, and what it makes of jnp.take's guard.

  The precondition's third conjunct is jnp.all((a >= 0) & (a < 100000)) over the int32 array a [600000, 2]: read
  at an element it says the word, read signed, lies in [0, 100000). For such a word jnp's index normalisation
  select(w < 0, w + N, w) returns the word itself, and the guard of jnp.take in its default fill mode
  (0 <= w and w <= N - 1, reduced by "and" over the index vector's one coordinate) is 1 at every row, so the
  take never fills.
-/
import Idealize.ShloMosaic.PureOps
import Idealize.ShloMosaic.Lib.ValueIdx
import Idealize.ShloMosaic.Lib.ValueIdxRank1
import Idealize.ShloMosaic.Lib.ReduceAll
import Idealize.ShloMosaic.Lib.WordArith
import proofs.«413679_j14482629722854_3_alg».proof.Pre_finite_inputs

noncomputable section

namespace Cert.Bridge.InRange

open Idealize.ShloMosaic Idealize.ShloMosaic.ValueIdx

/-- A rank-0 array has one index. -/
private instance subsingleton_idx0 : Subsingleton (⟨0, ![]⟩ : Shape).Idx := ⟨fun _ _ => funext fun d => d.elim0⟩

/-- The precondition at an element of the index array: the word, read signed, is a row number of the table. -/
theorem index_range {F : FTy → Type} [FloatOps F] [Cert.Pre_finite_inputs.Facts]
    (r : FVec F ⟨2, ![100000, 128]⟩ .f32) (e : FVec F ⟨2, ![600000, 128]⟩ .f32) (a : IVec ⟨2, ![600000, 2]⟩ 32)
    (h : Cert.Pre_finite_inputs.fn (F := F) r e a = fun _ => 1#1) (j : Fin 600000) (k : Fin 2) :
    0 ≤ (a (ix2 j k)).toInt ∧ (a (ix2 j k)).toInt < 100000 := by
  have h0 := congrFun h ValueIdx.ix0
  dsimp only [Cert.Pre_finite_inputs.fn] at h0
  have h1 := (IntOp.andi_eq_one.1 h0).2
  have h2 := Host.reduce_andi_all _ _ _ _ _ h1 (ix2 j k)
  obtain ⟨hge, hlt⟩ := IntOp.andi_eq_one.1 h2
  have hge' := IntOp.cmpi_sge.1 hge
  have hlt' := IntOp.cmpi_slt.1 hlt
  have e0 : (0#32 : BitVec 32).toInt = 0 := by decide
  have e1 : (100000#32 : BitVec 32).toInt = 100000 := by decide
  change (0#32 : BitVec 32).toInt ≤ _ at hge'
  change _ < (100000#32 : BitVec 32).toInt at hlt'
  rw [e0] at hge'
  rw [e1] at hlt'
  exact ⟨hge', hlt'⟩

/-- jnp's normalisation of an index, select(w < 0, w + N, w), is the identity on nonnegative words. -/
theorem wrap_of_nonneg {s : Shape} (col Zs Ns : IVec s 32) (hZs : ∀ i, Zs i = 0#32)
    (hcol : ∀ i, 0 ≤ (col i).toInt) :
    select (cmpi .slt col Zs) (addi col Ns) col = col := by
  funext i
  rw [ValueIdx.select_apply]
  have hc : cmpi .slt col Zs i = 0#1 := by
    apply eq_zero_of_ne_one
    intro hh
    have hlt := IntOp.cmpi_slt.1 hh
    have e0 : (0#32 : BitVec 32).toInt = 0 := by decide
    rw [hZs i, e0] at hlt
    have := hcol i
    omega
  rw [hc, select_zero]

/-- A left fold by "and" from 1 over one-bit words that are all 1 is 1. -/
private theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a (List.mem_cons.2 (Or.inl rfl)), h11]
    exact foldl_andi_ones f l (fun n hn => h n (List.mem_cons.2 (Or.inr hn)))

/-- The guard of the take, 0 <= w and w <= 99999 reduced by "and" along the index vector's axis, is 1 at every
    row when every index word is a row number of the table. -/
theorem mask_all_ones (W Z M : IVec ⟨2, ![600000, 1]⟩ 32) (hZ : ∀ i, Z i = 0#32) (hM : ∀ i, M i = 99999#32)
    (hW : ∀ i, 0 ≤ (W i).toInt ∧ (W i).toInt < 100000)
    (init : IVec ⟨0, ![]⟩ 1) (hinit : ∀ i, init i = 1#1)
    (hr : (⟨2, ![600000, 1]⟩ : Shape).ReducesTo [1] ⟨1, ![600000]⟩) (hu : 0 < (⟨0, ![]⟩ : Shape).numel) :
    Host.reduce IntOp.andi (andi (cmpi .sge W Z) (cmpi .sle W M)) init hr hu = fun _ => 1#1 := by
  funext j
  rw [Host.reduce_eq_foldl, hinit]
  apply foldl_andi_ones
  intro i _
  have e0 : (0#32 : BitVec 32).toInt = 0 := by decide
  have e1 : (99999#32 : BitVec 32).toInt = 99999 := by decide
  refine IntOp.andi_eq_one.2 ⟨IntOp.cmpi_sge.2 ?_, IntOp.cmpi_sle.2 ?_⟩
  · rw [hZ i, e0]; exact (hW i).1
  · rw [hM i, e1]; have := (hW i).2; omega

end Cert.Bridge.InRange

end
-- ==== Proof.KernelHost.lean ====
/-
  What the region finds in the buffers the host operations before it wrote, as terms of the argument arrays.

  Before the pallas_call the program slices the two columns of the index array a [600000, 2] into vectors
  (col0 = a[:, 0], col1 = a[:, 1]) and takes the rows of r at each (jnp.take in its default fill mode): the index is
  normalised (w < 0 goes to w + 100000), the row is gathered at the clamped index, and a row whose normalised index
  is outside [0, 99999] is replaced by the fill pattern. Window 0 of the region stages take r col0, window 1
  take r col1, window 2 the edge features e.
-/
import proofs.«413679_j14482629722854_3_alg».proof.Proof.Gen.KernelIdeal.Frame
import Idealize.ShloMosaic.Lib.StableHlo.Run

noncomputable section

namespace Cert.KernelIdeal.Bridge

open Idealize.ShloMosaic Idealize.ShloMosaic.TcCoe Idealize.SL.Sem Idealize.ShloMosaic.StableHlo
open Cert.KernelIdeal Cert.KernelIdeal.Facts₀ Cert.KernelIdeal.Facts

variable {F : FTy → Type} [FloatOps F]

/-- Column 0 of the index array, as a vector. -/
abbrev col0 (a : IVec S600000x2 32) : IVec S600000 32 :=
  shapeCast S600000 (extractStridedSlice S600000x1 ![0, 0] a slices_S600000x2_S600000x1_0_0) shapeCasts_S600000x1_S600000

/-- Column 1 of the index array, as a vector. -/
abbrev col1 (a : IVec S600000x2 32) : IVec S600000 32 :=
  shapeCast S600000 (extractStridedSlice S600000x1 ![0, 1] a slices_S600000x2_S600000x1_0_1) shapeCasts_S600000x1_S600000

/-- jnp's normalised index vector of a take, as the gather's start indices [600000, 1]. -/
abbrev wrapIdx (col : IVec S600000 32) : IVec S600000x1 32 :=
  broadcastInDim S600000x1 ![0] bcast_S600000_S600000x1_0
    (select (cmpi .slt col (broadcastInDim S600000 ![] bcast_S_S600000 (constantI S_ 32 0#32)))
      (addi col (broadcastInDim S600000 ![] bcast_S_S600000 (constantI S_ 32 100000#32))) col)

/-- The take's guard: row by row, whether the normalised index is inside [0, 99999]. -/
abbrev guard (W : IVec S600000x1 32) : IVec S600000 1 :=
  Host.reduce IntOp.andi
    (andi (cmpi .sge W (broadcastInDim S600000x1 ![] bcast_S_S600000x1 (constantI S_ 32 0#32)))
      (cmpi .sle W (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- jnp.take(r, col, axis=0) in fill mode. -/
abbrev take (r : FVec F S100000x128 .f32) (col : IVec S600000 32) : FVec F S600000x128 .f32 :=
  select (broadcastInDim S600000x128 ![0] bcast_S600000_S600000x128_0 (guard (wrapIdx col)))
    (Host.gather gather_S100000x128_S600000x1_S600000x128_1_0_n_n_0_1_1128 r (wrapIdx col))
    (broadcastInDim S600000x128 ![] bcast_S_S600000x128 (constant S_ .f32 0x7FC00000#32))

variable (m : (ℓ : Loc nD τ sig) → Buf (Elt F) ℓ)

theorem V_main_v1 (c : Dev nD) :
    (Gen.V m c main_v1 : S600000.Idx → BitVec 32) = col0 (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results
  rfl

theorem V_main_v3 (c : Dev nD) :
    (Gen.V m c main_v3 : S600000.Idx → BitVec 32) = col1 (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results
  rfl

set_option maxHeartbeats 4000000 in
set_option maxRecDepth 100000 in
theorem V_main_v4 (c : Dev nD) :
    (Gen.V m c main_v4 : S600000x128.Idx → Elt F .f32)
      = take (m ((c : Thread nD τ).loc main_arg0)) (col0 (m ((c : Thread nD τ).loc main_arg2))) := by
  dsimp only [Gen.V, Gen.V0]
  simp only [Gen.hostOps0, Gen.hostOps0_1, Gen.hostOps0_2, List.flatten_cons, List.flatten_nil, List.append_nil, List.cons_append,
    List.nil_append]
  after_results_simp
  simp only [cast_eq]
  rfl

set_option maxHeartbeats 4000000 in
set_option maxRecDepth 100000 in
theorem V_main_v5 (c : Dev nD) :
    (Gen.V m c main_v5 : S600000x128.Idx → Elt F .f32)
      = take (m ((c : Thread nD τ).loc main_arg0)) (col1 (m ((c : Thread nD τ).loc main_arg2))) := by
  dsimp only [Gen.V, Gen.V0]
  simp only [Gen.hostOps0, Gen.hostOps0_1, Gen.hostOps0_2, List.flatten_cons, List.flatten_nil, List.append_nil, List.cons_append,
    List.nil_append]
  after_results_simp
  simp only [cast_eq]
  rfl

end Cert.KernelIdeal.Bridge

end
-- ==== Proof.KernelBlocks.lean ====
/-
  The packed message array the region leaves.

  The pallas_call walks 75 blocks of 8000 edges. At block t it reads rows [8000 t, 8000 t + 8000) of the two gathered
  row arrays x0, x1 and of the edge features e, and stores x0 * e into plane 0 and x1 * e into plane 1 of its
  [2, 8000, 128] output block, which is written back to rows [8000 t, 8000 t + 8000) of both planes of the
  [2, 600000, 128] output. The blocks tile the output, so after the region it holds, at (u, j, d),
  (x0 if u = 0 else x1)(j, d) * e(j, d).
-/
import proofs.«413679_j14482629722854_3_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

/-! ## One block -/

/-- One output block from one block of each operand: plane 0 is x0 * x2, plane 1 is x1 * x2. -/
def blockMsgs (x0 x1 x2 : Vec F S8000x128 .f32) : Vec F S2x8000x128 .f32 :=
  fun y => FloatOps.mulf
    (if (y 0).val = 0 then x0 (ix2 (⟨(y 1).val, (y 1).isLt⟩ : Fin 8000) (⟨(y 2).val, (y 2).isLt⟩ : Fin 128))
      else x1 (ix2 (⟨(y 1).val, (y 1).isLt⟩ : Fin 8000) (⟨(y 2).val, (y 2).isLt⟩ : Fin 128)))
    (x2 (ix2 (⟨(y 1).val, (y 1).isLt⟩ : Fin 8000) (⟨(y 2).val, (y 2).isLt⟩ : Fin 128)))

/-- The block read at an index whose row and lane are named. -/
theorem blockMsgs_apply (x0 x1 x2 : Vec F S8000x128 .f32) (y : S2x8000x128.Idx) (p : Fin 8000) (q : Fin 128)
    (h1 : (y 1).val = p.val) (h2 : (y 2).val = q.val) :
    blockMsgs x0 x1 x2 y
      = FloatOps.mulf (if (y 0).val = 0 then x0 (ix2 p q) else x1 (ix2 p q)) (x2 (ix2 p q)) := by
  have e : ix2 (⟨(y 1).val, (y 1).isLt⟩ : Fin 8000) (⟨(y 2).val, (y 2).isLt⟩ : Fin 128) = ix2 p q := by
    rw [show (⟨(y 1).val, (y 1).isLt⟩ : Fin 8000) = p from Fin.ext h1,
      show (⟨(y 2).val, (y 2).isLt⟩ : Fin 128) = q from Fin.ext h2]
  unfold blockMsgs
  rw [e]

theorem hz2 : (![0, 0] : Fin 2 → Nat) = fun _ => 0 := funext fun a => by fin_cases a <;> rfl

/-- What the body leaves in the output block is that function of the three input blocks: each of its two stores
    writes the plane its rectangle names. -/
theorem out0_3_eq (x0 x1 x2 : Vec F S8000x128 .f32) : out0_3 x0 x1 x2 = blockMsgs x0 x1 x2 := by
  funext y
  unfold out0_3
  refine View.canon_apply_of_pieces (blockMsgs x0 x1 x2) _ ?_ y (cover0_3 _ _ y)
  intro p hp x
  rcases List.mem_cons.mp hp with rfl | hp
  · -- the later store: plane 1 holds x1 * x2
    obtain ⟨u, r, l, rfl⟩ : ∃ (u : Fin 1) (r : Fin 8000) (l : Fin 128), x = ix3 u r l := ⟨x 0, x 1, x 2, eq_ix3 x⟩
    show k0_pay2 (View.ld x2 r0_0) (View.ld x1 r0_0) (ix3 u r l) = blockMsgs x0 x1 x2 (r0_2.emb (ix3 u r l))
    rw [View.ld_unit_zero (S := S8000x128) hz2, View.ld_unit_zero (S := S8000x128) hz2]
    have hu : u.val = 0 := by omega
    rw [blockMsgs_apply x0 x1 x2 _ r l (by show 0 + 1 * r.val = r.val; omega) (by show 0 + 1 * l.val = l.val; omega),
      if_neg (by show ¬ (1 + 1 * u.val = 0); omega)]
    unfold k0_pay2
    rw [shapeCast_ab_1ab_apply, shapeCast_self]
    rfl
  · -- the earlier store: plane 0 holds x0 * x2
    rcases List.mem_singleton.mp hp with rfl
    obtain ⟨u, r, l, rfl⟩ : ∃ (u : Fin 1) (r : Fin 8000) (l : Fin 128), x = ix3 u r l := ⟨x 0, x 1, x 2, eq_ix3 x⟩
    show k0_pay1 (View.ld x2 r0_0) (View.ld x0 r0_0) (ix3 u r l) = blockMsgs x0 x1 x2 (r0_1.emb (ix3 u r l))
    rw [View.ld_unit_zero (S := S8000x128) hz2, View.ld_unit_zero (S := S8000x128) hz2]
    have hu : u.val = 0 := by omega
    rw [blockMsgs_apply x0 x1 x2 _ r l (by show 0 + 1 * r.val = r.val; omega) (by show 0 + 1 * l.val = l.val; omega),
      if_pos (by show 0 + 1 * u.val = 0; omega)]
    unfold k0_pay1
    rw [shapeCast_ab_1ab_apply, shapeCast_self]
    rfl

/-! ## The array -/

/-- The packed messages from the two gathered row arrays and the edge features. -/
def msgs (x0 x1 e : S600000x128.Idx → Elt F .f32) : S2x600000x128.Idx → Elt F .f32 :=
  fun i => FloatOps.mulf
    (if (i 0).val = 0 then x0 (ix2 (⟨(i 1).val, (i 1).isLt⟩ : Fin 600000) (⟨(i 2).val, (i 2).isLt⟩ : Fin 128))
      else x1 (ix2 (⟨(i 1).val, (i 1).isLt⟩ : Fin 600000) (⟨(i 2).val, (i 2).isLt⟩ : Fin 128)))
    (e (ix2 (⟨(i 1).val, (i 1).isLt⟩ : Fin 600000) (⟨(i 2).val, (i 2).isLt⟩ : Fin 128)))

/-- The array read at an index whose row and lane are named. -/
theorem msgs_apply (x0 x1 e : S600000x128.Idx → Elt F .f32) (i : S2x600000x128.Idx) (P : Fin 600000) (q : Fin 128)
    (h1 : (i 1).val = P.val) (h2 : (i 2).val = q.val) :
    msgs x0 x1 e i = FloatOps.mulf (if (i 0).val = 0 then x0 (ix2 P q) else x1 (ix2 P q)) (e (ix2 P q)) := by
  have e' : ix2 (⟨(i 1).val, (i 1).isLt⟩ : Fin 600000) (⟨(i 2).val, (i 2).isLt⟩ : Fin 128) = ix2 P q := by
    rw [show (⟨(i 1).val, (i 1).isLt⟩ : Fin 600000) = P from Fin.ext h1,
      show (⟨(i 2).val, (i 2).isLt⟩ : Fin 128) = q from Fin.ext h2]
  unfold msgs
  rw [e']

variable (m : (ℓ : Loc nD τ sig) → Buf (Elt F) ℓ)

/-- The index maps, decided over the 75 points: every input window's block row is the output window's, the lane
    block is 0, and the output's plane block is 0. -/
theorem idx_facts : ∀ t : Fin cfg0.N,
    win0_0.index t (0 : Fin 2) = win0_3.index t (1 : Fin 3) ∧ win0_0.index t (1 : Fin 2) = 0
    ∧ win0_1.index t (0 : Fin 2) = win0_3.index t (1 : Fin 3) ∧ win0_1.index t (1 : Fin 2) = 0
    ∧ win0_2.index t (0 : Fin 2) = win0_3.index t (1 : Fin 3) ∧ win0_2.index t (1 : Fin 2) = 0
    ∧ win0_3.index t (0 : Fin 3) = 0 ∧ win0_3.index t (2 : Fin 3) = 0 ∧ win0_3.index t (1 : Fin 3) ≤ 74 :=
  (by decide +kernel : ∀ t : Fin grid0.N, _)

/-- Every block row of the output is some point's. -/
theorem idx_onto : ∀ q : Fin 75, ∃ t : Fin cfg0.N, win0_3.index t = ![0, q.val, 0] :=
  (by decide +kernel : ∀ q : Fin 75, ∃ t : Fin grid0.N, win0_3.index t = ![0, q.val, 0])

/-- An element of block t of input window 0 sits in its array at row 8000 t + its row, same lane. -/
theorem emb0 (t : Fin cfg0.N) (p : Fin 8000) (q : Fin 128) (P : Fin 600000)
    (hP : P.val = win0_3.index t (1 : Fin 3) * 8000 + p.val) :
    ((cfg0.win 0).blk t).view.emb (ix2 p q) = ix2 P q := by
  obtain ⟨e00, e01, e10, e11, e20, e21, e30, e32, e31⟩ := idx_facts t
  funext a; apply Fin.ext
  match a with
  | ⟨0, _⟩ => show win0_0.index t (0 : Fin 2) * 8000 + 1 * p.val = P.val; omega
  | ⟨1, _⟩ => show win0_0.index t (1 : Fin 2) * 128 + 1 * q.val = q.val; omega

/-- Block t of input window 0 is rows [8000 t, 8000 t + 8000) of the first gathered array. -/
theorem iblk0_apply (c : Dev nD) (t : Fin cfg0.N) (p : Fin 8000) (q : Fin 128) (P : Fin 600000)
    (hP : P.val = win0_3.index t (1 : Fin 3) * 8000 + p.val) :
    iblk m c 0 t (ix2 p q) = V m c main_v4 (ix2 P q) := by
  unfold iblk
  rw [View.read_apply, cast_eq, emb0 t p q P hP]

/-- An element of block t of input window 1 sits in its array at row 8000 t + its row, same lane. -/
theorem emb1 (t : Fin cfg0.N) (p : Fin 8000) (q : Fin 128) (P : Fin 600000)
    (hP : P.val = win0_3.index t (1 : Fin 3) * 8000 + p.val) :
    ((cfg0.win 1).blk t).view.emb (ix2 p q) = ix2 P q := by
  obtain ⟨e00, e01, e10, e11, e20, e21, e30, e32, e31⟩ := idx_facts t
  funext a; apply Fin.ext
  match a with
  | ⟨0, _⟩ => show win0_1.index t (0 : Fin 2) * 8000 + 1 * p.val = P.val; omega
  | ⟨1, _⟩ => show win0_1.index t (1 : Fin 2) * 128 + 1 * q.val = q.val; omega

/-- Block t of input window 1 is rows [8000 t, 8000 t + 8000) of the second gathered array. -/
theorem iblk1_apply (c : Dev nD) (t : Fin cfg0.N) (p : Fin 8000) (q : Fin 128) (P : Fin 600000)
    (hP : P.val = win0_3.index t (1 : Fin 3) * 8000 + p.val) :
    iblk m c 1 t (ix2 p q) = V m c main_v5 (ix2 P q) := by
  unfold iblk
  rw [View.read_apply, cast_eq, emb1 t p q P hP]

/-- An element of block t of input window 2 sits in its array at row 8000 t + its row, same lane. -/
theorem emb2 (t : Fin cfg0.N) (p : Fin 8000) (q : Fin 128) (P : Fin 600000)
    (hP : P.val = win0_3.index t (1 : Fin 3) * 8000 + p.val) :
    ((cfg0.win 2).blk t).view.emb (ix2 p q) = ix2 P q := by
  obtain ⟨e00, e01, e10, e11, e20, e21, e30, e32, e31⟩ := idx_facts t
  funext a; apply Fin.ext
  match a with
  | ⟨0, _⟩ => show win0_2.index t (0 : Fin 2) * 8000 + 1 * p.val = P.val; omega
  | ⟨1, _⟩ => show win0_2.index t (1 : Fin 2) * 128 + 1 * q.val = q.val; omega

/-- Block t of input window 2 is rows [8000 t, 8000 t + 8000) of the edge features. -/
theorem iblk2_apply (c : Dev nD) (t : Fin cfg0.N) (p : Fin 8000) (q : Fin 128) (P : Fin 600000)
    (hP : P.val = win0_3.index t (1 : Fin 3) * 8000 + p.val) :
    iblk m c 2 t (ix2 p q) = V m c main_arg1 (ix2 P q) := by
  unfold iblk
  rw [View.read_apply, cast_eq, emb2 t p q P hP]

/-- What point t writes back is block t of the packed message array. -/
theorem flushed_eq (c : Dev nD) (t : Fin cfg0.N) :
    (dats m 0 c).flushed 3 t
      = ((cfg0.win 3).blk t).view.read (Elt F) (msgs (V m c main_v4) (V m c main_v5) (V m c main_arg1)) := by
  show (cfg0.win 3).cut (grid0.coords t) ((dats m 0 c).after 3 t) = _
  rw [after0_3, out0_3_eq]
  obtain ⟨e00, e01, e10, e11, e20, e21, e30, e32, e31⟩ := idx_facts t
  funext j
  show blockMsgs (iblk m c 0 t) (iblk m c 1 t) (iblk m c 2 t) j
    = msgs (V m c main_v4) (V m c main_v5) (V m c main_arg1) (((cfg0.win 3).blk t).view.emb j)
  have hj0 : (j 0).val < 2 := (j 0).isLt
  have hj1 : (j 1).val < 8000 := (j 1).isLt
  have hj2 : (j 2).val < 128 := (j 2).isLt
  have E0 : ((((cfg0.win 3).blk t).view.emb j) 0).val = (j 0).val := by
    show win0_3.index t (0 : Fin 3) * 2 + 1 * (j 0).val = (j 0).val; omega
  have E1 : ((((cfg0.win 3).blk t).view.emb j) 1).val = win0_3.index t (1 : Fin 3) * 8000 + (j 1).val := by
    show win0_3.index t (1 : Fin 3) * 8000 + 1 * (j 1).val = _; omega
  have E2 : ((((cfg0.win 3).blk t).view.emb j) 2).val = (j 2).val := by
    show win0_3.index t (2 : Fin 3) * 128 + 1 * (j 2).val = (j 2).val; omega
  rw [blockMsgs_apply _ _ _ j ⟨(j 1).val, hj1⟩ ⟨(j 2).val, hj2⟩ rfl rfl,
    msgs_apply _ _ _ _ ⟨win0_3.index t (1 : Fin 3) * 8000 + (j 1).val, by omega⟩ ⟨(j 2).val, hj2⟩ E1 E2, E0,
    iblk0_apply m c t ⟨(j 1).val, hj1⟩ ⟨(j 2).val, hj2⟩ ⟨win0_3.index t (1 : Fin 3) * 8000 + (j 1).val, by omega⟩ rfl,
    iblk1_apply m c t ⟨(j 1).val, hj1⟩ ⟨(j 2).val, hj2⟩ ⟨win0_3.index t (1 : Fin 3) * 8000 + (j 1).val, by omega⟩ rfl,
    iblk2_apply m c t ⟨(j 1).val, hj1⟩ ⟨(j 2).val, hj2⟩ ⟨win0_3.index t (1 : Fin 3) * 8000 + (j 1).val, by omega⟩ rfl]

/-- An index of the output is in point t's block iff each coordinate is in the block's range on its axis. -/
theorem mem_blk (t : Fin cfg0.N) (i : S2x600000x128.Idx) :
    i ∈ ((cfg0.win 3).blk t).view.set ↔ ∀ a : Fin 3, win0_3.index t a * S2x8000x128.size a ≤ (i a).val
      ∧ (i a).val < win0_3.index t a * S2x8000x128.size a + S2x8000x128.size a := by
  show i ∈ ((View.whole main_v6).slice (win0_3.rect t)).set ↔ _
  rw [View.set_slice_whole, Rect.mem_set_unit]
  exact Iff.rfl

/-- Every index of the output is in the block of the point that owns its row: the blocks tile the array. -/
theorem cover (i : S2x600000x128.Idx) :
    ∃ t : Fin cfg0.N, (cfg0.win 3).flush t = true ∧ i ∈ ((cfg0.win 3).blk t).view.set := by
  have hi0 : (i 0).val < 2 := (i 0).isLt
  have hi1 : (i 1).val < 600000 := (i 1).isLt
  have hi2 : (i 2).val < 128 := (i 2).isLt
  obtain ⟨t, ht⟩ := idx_onto ⟨(i 1).val / 8000, by omega⟩
  have q0 : win0_3.index t (0 : Fin 3) = 0 := congrFun ht 0
  have q1 : win0_3.index t (1 : Fin 3) = (i 1).val / 8000 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 8000 ≤ (i 1).val ∧ (i 1).val < win0_3.index t (1 : Fin 3) * 8000 + 8000; omega
  | ⟨2, _⟩ => show win0_3.index t (2 : Fin 3) * 128 ≤ (i 2).val ∧ (i 2).val < win0_3.index t (2 : Fin 3) * 128 + 128; omega

/-- The output array after the region is the packed message array of what the region found. -/
theorem msgs_final (c : Dev nD) :
    (dats m 0 c).arrAt 3 cfg0.N = msgs (V m c main_v4) (V m c main_v5) (V m c main_arg1) :=
  (dats m 0 c).arrAt_eq_of_cover 3 _ (fun t _ => flushed_eq m c t) (cover)

end Cert.KernelIdeal.Blocks

end
-- ==== Proof.KernelTail.lean ====
/-
  The program's result as a term of what the region found and what it left.

  After the pallas_call the program flattens the [2, 600000, 128] message array to [1200000, 128], concatenates
  the two index columns (column 1 first, then column 0) into 1200000 destination indices, and accumulates the
  message rows into a zero array [100000, 128] at those destinations. The message array is window 3's array
  after the region; the index columns are what the host operations before the region wrote.
-/
import proofs.«413679_j14482629722854_3_alg».proof.Proof.Gen.KernelIdeal.Frame
import Idealize.ShloMosaic.Lib.StableHlo.Run

noncomputable section

namespace Cert.KernelIdeal.Bridge

open Idealize.ShloMosaic Idealize.ShloMosaic.TcCoe Idealize.SL.Sem Idealize.ShloMosaic.StableHlo
open Cert.KernelIdeal Cert.KernelIdeal.Facts₀ Cert.KernelIdeal.Facts

variable {F : FTy → Type} [FloatOps F]

/-- The accumulation the program ends with: message rows `upd` added into a zero array at the destinations
    `d1` (first 600000 rows) and `d0` (last 600000 rows). -/
abbrev accumulate (d1 d0 : IVec S600000 32) (msg : FVec F S2x600000x128 .f32) : FVec F S100000x128 .f32 :=
  Host.scatterAdd scatter_S100000x128_S1200000x1_S1200000x128_1_0_0_1
    (broadcastInDim S100000x128 ![] bcast_S_S100000x128 (constant S_ .f32 0x00000000#32))
    (broadcastInDim S1200000x1 ![0] bcast_S1200000_S1200000x1_0
      (concatenate S1200000 0 [⟨S600000, d1⟩, ⟨S600000, d0⟩] concatenates_S600000_S600000_S1200000_d0))
    (shapeCast S1200000x128 msg shapeCasts_S2x600000x128_S1200000x128)

variable (m : (ℓ : Loc nD τ sig) → Buf (Elt F) ℓ)

/-- The result buffer after the host operations that follow the region. -/
theorem result_eq (c : Dev nD) :
    (Pipeline.afterTail₀ cfgs (Gen.dats m) 0 (Gen.V0 m) [Gen.hostOps1] c main_v11 : S100000x128.Idx → Elt F .f32)
      = accumulate (Gen.V m c main_v3) (Gen.V m c main_v1) ((Gen.dats m 0 c).arrAt 3 cfg0.N) := by
  unfold Pipeline.afterTail₀
  show StableHlo.after Gen.hostOps1 _ (Proc.devRef .tc main_v11) = _
  after_results
  rw [Pipeline.withArrays_of_ne _ c (Gen.V0 m c) _ main_v3 (by exact (by decide : ∀ w, Pipeline.arrRef spec0 w ≠ main_v3)),
    Pipeline.withArrays_of_ne _ c (Gen.V0 m c) _ main_v1 (by exact (by decide : ∀ w, Pipeline.arrRef spec0 w ≠ main_v1)),
    show Pipeline.withArrays (cfgs 0).spec c (Gen.V0 m c) (fun w => (Gen.dats m 0 c).arrAt w (cfgs 0).N)
        (Proc.devRef .tc main_v6) = (Gen.dats m 0 c).arrAt 3 cfg0.N
      from Pipeline.withArrays_arr spec0 Gen.launch0.win.arr_inj c _ _ 3]
  rfl

end Cert.KernelIdeal.Bridge

end
-- ==== Proof.Layout.lean ====
/-
  Layout operations of the two programs read at an index.

  A column of the index array [600000, 2] taken by a slice and a reshape is, at row j, the array's entry (j, k).
  A vector used as scatter indices [K, 1] is, at (j, 0), the vector's entry j. The concatenation of two vectors of
  600000 entries is the first at positions below 600000 and the second from there on. The [2, 600000, 128] message
  array flattened to [1200000, 128] has plane 0 in rows [0, 600000) and plane 1 in rows [600000, 1200000)
  (row-major order).
-/
import Idealize.ShloMosaic.PureOps
import Idealize.ShloMosaic.Lib.ValueIdx
import Idealize.ShloMosaic.Lib.ValueIdxRank1
import Idealize.ShloMosaic.Lib.ValueLayout
import Idealize.ShloMosaic.Lib.Pipeline.Value

noncomputable section

namespace Cert.Bridge.Layout

open Idealize.ShloMosaic Idealize.ShloMosaic.ValueIdx

variable {α : Type}

/-- Column k of a two-column array, sliced and reshaped to a vector, at row j. -/
theorem column_apply (o : Nat) (k : Fin 2) (hk : k.val = o) (a : (⟨2, ![600000, 2]⟩ : Shape).Idx → α)
    (hs : (⟨2, ![600000, 2]⟩ : Shape).Slices ![0, o] ⟨2, ![600000, 1]⟩)
    (hc : (⟨2, ![600000, 1]⟩ : Shape).ShapeCasts ⟨1, ![600000]⟩) (j : Fin 600000) :
    shapeCast ⟨1, ![600000]⟩ (extractStridedSlice ⟨2, ![600000, 1]⟩ ![0, o] a hs) hc (ix1 j) = a (ix2 j k) := by
  rw [shapeCast_apply _ hc (ix1 j) (ix2 j (0 : Fin 1)) (by
    rw [Shape.rowMajor_val_two, Shape.rowMajor_val_one]
    show j.val * 1 + 0 = j.val
    omega)]
  exact slice2_axis1_apply o a hs j (0 : Fin 1) k (by rw [hk]; rfl)

/-- A vector broadcast to a column [K, 1] (scatter or gather start indices), at (j, 0). -/
theorem colvec_apply {K : Nat} (x : (⟨1, ![K]⟩ : Shape).Idx → α)
    (hb : (⟨1, ![K]⟩ : Shape).BroadcastsInDim ⟨2, ![K, 1]⟩ ![0]) (j : Fin K) (u : Fin 1) :
    broadcastInDim ⟨2, ![K, 1]⟩ ![0] hb x (ix2 j u) = x (ix1 j) := by
  refine broadcastInDim_apply _ hb x _ (ix1 j) (fun a => ?_)
  match a with
  | ⟨0, _⟩ =>
    show j.val = if K = 1 then 0 else j.val
    have := j.isLt
    split <;> omega

/-- The concatenation of two vectors of 600000 entries, at a position in the first half. -/
theorem concat_left (x y : (⟨1, ![600000]⟩ : Shape).Idx → α)
    (h : Shape.Concatenates [⟨1, ![600000]⟩, ⟨1, ![600000]⟩] ⟨1, ![1200000]⟩ 0) (j : Fin 600000) :
    concatenate ⟨1, ![1200000]⟩ 0 [⟨⟨1, ![600000]⟩, x⟩, ⟨⟨1, ![600000]⟩, y⟩] h (ix1 (⟨j.val, by omega⟩ : Fin 1200000))
      = x (ix1 j) := by
  refine concatenate_pair_apply_left 0 x y h _ rfl (ix1 j) (fun b => ?_)
  match b with
  | ⟨0, _⟩ => rfl

/-- The concatenation of two vectors of 600000 entries, at a position in the second half. -/
theorem concat_right (x y : (⟨1, ![600000]⟩ : Shape).Idx → α)
    (h : Shape.Concatenates [⟨1, ![600000]⟩, ⟨1, ![600000]⟩] ⟨1, ![1200000]⟩ 0) (j : Fin 600000) :
    concatenate ⟨1, ![1200000]⟩ 0 [⟨⟨1, ![600000]⟩, x⟩, ⟨⟨1, ![600000]⟩, y⟩] h
        (ix1 (⟨600000 + j.val, by omega⟩ : Fin 1200000))
      = y (ix1 j) := by
  refine concatenate_pair_apply_right 0 x y h _ rfl rfl (ix1 j) (fun b hb => ?_) ?_
  · match b with
    | ⟨0, _⟩ => exact absurd rfl hb
  · show j.val + 600000 = 600000 + j.val
    omega

/-- Plane 0 of a [2, 600000, 128] array flattened to [1200000, 128]: rows [0, 600000). -/
theorem flat_plane0 (X : (⟨3, ![2, 600000, 128]⟩ : Shape).Idx → α)
    (h : (⟨3, ![2, 600000, 128]⟩ : Shape).ShapeCasts ⟨2, ![1200000, 128]⟩) (j : Fin 600000) (c : Fin 128) :
    shapeCast ⟨2, ![1200000, 128]⟩ X h (ix2 (⟨j.val, by omega⟩ : Fin 1200000) c) = X (ix3 (0 : Fin 2) j c) :=
  shapeCast_apply X h _ _ (by
    rw [Shape.rowMajor_val_three, Shape.rowMajor_val_two]
    show (0 * 600000 + j.val) * 128 + c.val = j.val * 128 + c.val
    omega)

/-- Plane 1 of a [2, 600000, 128] array flattened to [1200000, 128]: rows [600000, 1200000). -/
theorem flat_plane1 (X : (⟨3, ![2, 600000, 128]⟩ : Shape).Idx → α)
    (h : (⟨3, ![2, 600000, 128]⟩ : Shape).ShapeCasts ⟨2, ![1200000, 128]⟩) (j : Fin 600000) (c : Fin 128) :
    shapeCast ⟨2, ![1200000, 128]⟩ X h (ix2 (⟨600000 + j.val, by omega⟩ : Fin 1200000) c) = X (ix3 (1 : Fin 2) j c) :=
  shapeCast_apply X h _ _ (by
    rw [Shape.rowMajor_val_three, Shape.rowMajor_val_two]
    show (1 * 600000 + j.val) * 128 + c.val = (600000 + j.val) * 128 + c.val
    omega)

end Cert.Bridge.Layout

end
-- ==== Proof.Take.lean ====
/-
  In range, jnp.take never fills.

  When every word of the index vector, read signed, is a row number of the table (in [0, 100000)), the
  normalisation select(w < 0, w + 100000, w) leaves it unchanged, the guard 0 <= w <= 99999 holds at every row, and
  the select between the gathered row and the fill pattern returns the gathered row: the take is the gather.
-/
import proofs.«413679_j14482629722854_3_alg».proof.Proof.KernelHost
import proofs.«413679_j14482629722854_3_alg».proof.Proof.InRange
import proofs.«413679_j14482629722854_3_alg».proof.Proof.Layout

noncomputable section

namespace Cert.KernelIdeal.Bridge

open Idealize.ShloMosaic Idealize.ShloMosaic.ValueIdx
open Cert.KernelIdeal Cert.KernelIdeal.Facts₀ Cert.KernelIdeal.Facts

variable {F : FTy → Type} [FloatOps F]

/-- The normalised index vector of in-range indices is the index vector, as a column. -/
theorem wrapIdx_apply (col : IVec S600000 32)
    (hcol : ∀ j : Fin 600000, 0 ≤ (col (ix1 j)).toInt ∧ (col (ix1 j)).toInt < 100000) (j : Fin 600000) (u : Fin 1) :
    wrapIdx col (ix2 j u) = col (ix1 j) := by
  have hw : select (cmpi .slt col (broadcastInDim S600000 ![] bcast_S_S600000 (constantI S_ 32 0#32)))
      (addi col (broadcastInDim S600000 ![] bcast_S_S600000 (constantI S_ 32 100000#32))) col = col :=
    Cert.Bridge.InRange.wrap_of_nonneg col _ _ (fun _ => rfl) (fun i => by
      rw [eq_ix1 i]
      exact (hcol (i 0)).1)
  show broadcastInDim S600000x1 ![0] bcast_S600000_S600000x1_0
    (select (cmpi .slt col (broadcastInDim S600000 ![] bcast_S_S600000 (constantI S_ 32 0#32)))
      (addi col (broadcastInDim S600000 ![] bcast_S_S600000 (constantI S_ 32 100000#32))) col) (ix2 j u) = _
  rw [hw]
  exact Cert.Bridge.Layout.colvec_apply col bcast_S600000_S600000x1_0 j u

/-- In range the guard of the take is 1 at every row. -/
theorem guard_one (col : IVec S600000 32)
    (hcol : ∀ j : Fin 600000, 0 ≤ (col (ix1 j)).toInt ∧ (col (ix1 j)).toInt < 100000) :
    guard (wrapIdx col) = fun _ => 1#1 :=
  Cert.Bridge.InRange.mask_all_ones (wrapIdx col) _ _ (fun _ => rfl) (fun _ => rfl)
    (fun i => by
      obtain ⟨j, u, rfl⟩ : ∃ (j : Fin 600000) (u : Fin 1), i = ix2 j u := ⟨i 0, i 1, eq_ix2 i⟩
      rw [wrapIdx_apply col hcol j u]
      exact hcol j)
    _ (fun _ => rfl) _ _

/-- In range the take is the gather at the normalised index. -/
theorem take_eq_gather (r : FVec F S100000x128 .f32) (col : IVec S600000 32)
    (hcol : ∀ j : Fin 600000, 0 ≤ (col (ix1 j)).toInt ∧ (col (ix1 j)).toInt < 100000) :
    take r col = Host.gather gather_S100000x128_S600000x1_S600000x128_1_0_n_n_0_1_1128 r (wrapIdx col) := by
  show select (broadcastInDim S600000x128 ![0] bcast_S600000_S600000x128_0 (guard (wrapIdx col)))
    (Host.gather gather_S100000x128_S600000x1_S600000x128_1_0_n_n_0_1_1128 r (wrapIdx col))
    (broadcastInDim S600000x128 ![] bcast_S_S600000x128 (constant S_ .f32 0x7FC00000#32)) = _
  rw [guard_one col hcol]
  funext i
  rw [select_apply]
  exact select_one _ _

end Cert.KernelIdeal.Bridge

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.Sums.lean ====
/-
  A row accumulation whose update list is two lists laid end to end.

  The host's accumulating scatter into an array [N, C] (Ideal: each entry is the operand's plus the sum of the
  update rows whose index word names it) over 2K update rows whose first K rows and index words are one list's and
  whose last K rows and index words are another's, from a zero operand, is entry by entry the sum of the two
  accumulations of K rows each: a finite sum over Fin (K + K) splits at K, and addition of extended reals is
  commutative and associative with 0 neutral, so nothing about finiteness is needed.
-/
import Idealize.ShloMosaic.PureOps.Ideal
import Idealize.ShloMosaic.Lib.ValueIdx
import proofs.«413679_j14482629722854_3_alg».proof.Proof.LibRows

noncomputable section

open scoped BigOperators

namespace Cert.Bridge.Sums

open Idealize.ShloMosaic Idealize.ShloMosaic.ValueIdx Cert.Lib.Rows

theorem scatterAdd_rows_two_halves {N C K K2 : Nat} (hK : K2 = K + K)
    (wf2 : ScatterDims.WF ⟨2, ![N, C]⟩ ⟨2, ![K2, 1]⟩ ⟨2, ![K2, C]⟩ [1] [0] [0] 1)
    (wf1 : ScatterDims.WF ⟨2, ![N, C]⟩ ⟨2, ![K, 1]⟩ ⟨2, ![K, C]⟩ [1] [0] [0] 1)
    (z : (⟨2, ![N, C]⟩ : Shape).Idx → EReal) (hz : ∀ i, z i = 0) {w : Nat}
    (idx2 : IVec ⟨2, ![K2, 1]⟩ w) (upd2 : (⟨2, ![K2, C]⟩ : Shape).Idx → EReal)
    (idxA idxB : IVec ⟨2, ![K, 1]⟩ w) (updA updB : (⟨2, ![K, C]⟩ : Shape).Idx → EReal)
    (hiA : ∀ j : Fin K, idx2 (ix2 (⟨j.val, by omega⟩ : Fin K2) (0 : Fin 1)) = idxA (ix2 j (0 : Fin 1)))
    (hiB : ∀ j : Fin K, idx2 (ix2 (⟨K + j.val, by omega⟩ : Fin K2) (0 : Fin 1)) = idxB (ix2 j (0 : Fin 1)))
    (huA : ∀ (j : Fin K) (c : Fin C), upd2 (ix2 (⟨j.val, by omega⟩ : Fin K2) c) = updA (ix2 j c))
    (huB : ∀ (j : Fin K) (c : Fin C), upd2 (ix2 (⟨K + j.val, by omega⟩ : Fin K2) c) = updB (ix2 j c))
    (i : Fin N) (c : Fin C) :
    Ideal.hostScatterAdd (scatterRowsDims N C K2 wf2) z idx2 upd2 (ix2 i c)
      = Ideal.hostScatterAdd (scatterRowsDims N C K wf1) z idxA updA (ix2 i c)
        + Ideal.hostScatterAdd (scatterRowsDims N C K wf1) z idxB updB (ix2 i c) := by
  subst hK
  -- each accumulation read at (i, c): the operand's entry plus the sum of the update rows whose index word is i
  rw [hostScatterAdd_rows_apply wf2, hostScatterAdd_rows_apply wf1, hostScatterAdd_rows_apply wf1]
  -- the operand is 0 everywhere
  rw [hz, zero_add, zero_add, zero_add]
  -- the sum over Fin (K + K) splits at K into the first K and the last K terms
  rw [Fin.sum_univ_add]
  congr 1
  · -- the first K terms are the first list's
    refine Finset.sum_congr rfl fun j _ => ?_
    have e : (Fin.castAdd K j : Fin (K + K)) = ⟨j.val, by omega⟩ := Fin.ext rfl
    rw [e, hiA, huA]
  · -- the last K terms are the second list's
    refine Finset.sum_congr rfl fun j _ => ?_
    have e : (Fin.natAdd K j : Fin (K + K)) = ⟨K + j.val, by omega⟩ := Fin.ext rfl
    rw [e, hiB, huB]

end Cert.Bridge.Sums

end
-- ==== Proof.Result.lean ====
/-
  The two programs compute one array.

  With a0 = a[:, 0], a1 = a[:, 1], g0 = rows of r at a0, g1 = rows of r at a1 (indices in [0, 100000), so the
  kernel's takes are the plain gathers), the kernel accumulates the 1200000 rows [g0 * e ; g1 * e] into a zero array
  at the destinations [a1 ; a0]; the reference accumulates g0 * e at a1 and g1 * e at a0 separately and adds the two
  arrays. Entry (n, c) of an accumulation from zero is the sum of the update rows whose destination is n, so the
  kernel's entry is a sum over 1200000 rows that splits at 600000 into exactly the reference's two sums. Addition of
  extended reals is commutative and associative, so no finiteness is used.
-/
import proofs.«413679_j14482629722854_3_alg».proof.Proof.KernelHost
import proofs.«413679_j14482629722854_3_alg».proof.Proof.KernelBlocks
import proofs.«413679_j14482629722854_3_alg».proof.Proof.KernelTail
import proofs.«413679_j14482629722854_3_alg».proof.Proof.Take
import proofs.«413679_j14482629722854_3_alg».proof.Proof.Layout
import proofs.«413679_j14482629722854_3_alg».proof.Proof.Sums
import proofs.«413679_j14482629722854_3_alg».proof.Proof.Gen.ReferenceIdeal.Read
import Idealize.ShloMosaic.PureOps.Ideal.Laws

noncomputable section

namespace Cert.Bridge.Result

open Idealize.ShloMosaic Idealize.ShloMosaic.ValueIdx
open Cert.Lib.Rows Cert.Bridge.Layout
open Cert.KernelIdeal.Bridge Cert.KernelIdeal.Blocks

/-- The kernel program's result as a function of its arguments. -/
abbrev kernelResult {F : FTy → Type} [FloatOps F] (r : FVec F Cert.KernelIdeal.S100000x128 .f32)
    (e : FVec F Cert.KernelIdeal.S600000x128 .f32) (a : IVec Cert.KernelIdeal.S600000x2 32) :
    FVec F Cert.KernelIdeal.S100000x128 .f32 :=
  accumulate (col1 a) (col0 a) (msgs (take r (col0 a)) (take r (col1 a)) e)

variable (r : FVec Ideal Cert.KernelIdeal.S100000x128 .f32) (e : FVec Ideal Cert.KernelIdeal.S600000x128 .f32)
  (a : IVec Cert.KernelIdeal.S600000x2 32)

/-- The kernel's destination indices. -/
abbrev dst : IVec Cert.KernelIdeal.S1200000x1 32 :=
  broadcastInDim Cert.KernelIdeal.S1200000x1 ![0] Cert.KernelIdeal.Facts₀.bcast_S1200000_S1200000x1_0
    (concatenate Cert.KernelIdeal.S1200000 0 [⟨Cert.KernelIdeal.S600000, col1 a⟩, ⟨Cert.KernelIdeal.S600000, col0 a⟩]
      Cert.KernelIdeal.Facts₀.concatenates_S600000_S600000_S1200000_d0)

/-- The kernel's update rows. -/
abbrev upd : FVec Ideal Cert.KernelIdeal.S1200000x128 .f32 :=
  shapeCast Cert.KernelIdeal.S1200000x128 (msgs (take r (col0 a)) (take r (col1 a)) e)
    Cert.KernelIdeal.Facts₀.shapeCasts_S2x600000x128_S1200000x128

/-- The zero array both programs accumulate into. -/
abbrev zeros : FVec Ideal Cert.KernelIdeal.S100000x128 .f32 :=
  broadcastInDim Cert.KernelIdeal.S100000x128 ![] Cert.KernelIdeal.Facts₀.bcast_S_S100000x128
    (constant Cert.KernelIdeal.S_ .f32 0x00000000#32)

theorem zeros_apply (i : Cert.KernelIdeal.S100000x128.Idx) : zeros i = 0 := by
  show Ideal.ofBits .f32 0x00000000#32 = 0
  exact Ideal.ofBits_zero_f32

/-- The kernel's dimension numbers of the accumulation are the row accumulation's. -/
theorem dimsK_eq : Cert.KernelIdeal.scatter_S100000x128_S1200000x1_S1200000x128_1_0_0_1
    = scatterRowsDims 100000 128 1200000 Cert.KernelIdeal.Facts₀.scatter_S100000x128_S1200000x1_S1200000x128_1_0_0_1_wf :=
  rfl

/-- The reference's dimension numbers of its accumulations are the row accumulation's. -/
theorem dimsR_eq : Cert.ReferenceIdeal.scatter_S100000x128_S600000x1_S600000x128_1_0_0_1
    = scatterRowsDims 100000 128 600000 Cert.ReferenceIdeal.Facts₀.scatter_S100000x128_S600000x1_S600000x128_1_0_0_1_wf :=
  rfl

/-- At the ideal values the host's accumulating scatter is the exact accumulation. -/
theorem scatterAdd_ideal {s si u : Shape} {w : Nat} (d : ScatterDims s si u) (x : FVec Ideal s .f32) (idx : IVec si w)
    (v : FVec Ideal u .f32) : Host.scatterAdd d x idx v = Ideal.hostScatterAdd d x idx v := rfl

/-- The kernel's result at (n, c), as the library's accumulation of rows. -/
theorem kernel_at (n : Fin 100000) (c : Fin 128) :
    kernelResult r e a (ix2 n c)
      = Ideal.hostScatterAdd (scatterRowsDims 100000 128 1200000
          Cert.KernelIdeal.Facts₀.scatter_S100000x128_S1200000x1_S1200000x128_1_0_0_1_wf) zeros (dst a) (upd r e a) (ix2 n c) :=
  congrFun ((scatterAdd_ideal Cert.KernelIdeal.scatter_S100000x128_S1200000x1_S1200000x128_1_0_0_1 zeros (dst a)
    (upd r e a)).trans (congrArg (fun d => Ideal.hostScatterAdd d zeros (dst a) (upd r e a)) dimsK_eq)) (ix2 n c)

/-- The zero array of the reference's first accumulation is the kernel's. -/
theorem zeros22 : Cert.ReferenceIdeal.Read.val_main_v22 (F := Ideal) = zeros := rfl
/-- The zero array of the reference's second accumulation is the kernel's. -/
theorem zeros27 : Cert.ReferenceIdeal.Read.val_main_v27 (F := Ideal) = zeros := rfl

/-- The reference's first accumulation, as the library's accumulation of rows. -/
theorem v24_eq : Cert.ReferenceIdeal.Read.val_main_v24 (F := Ideal) r e a
    = Ideal.hostScatterAdd (scatterRowsDims 100000 128 600000
        Cert.ReferenceIdeal.Facts₀.scatter_S100000x128_S600000x1_S600000x128_1_0_0_1_wf)
          zeros (Cert.ReferenceIdeal.Read.val_main_v23 (F := Ideal) a) (Cert.ReferenceIdeal.Read.val_main_v9 (F := Ideal) r e a) :=
  by
  rw [Cert.ReferenceIdeal.Read.val_main_v24, scatterAdd_ideal, dimsR_eq, zeros22]

/-- The reference's second accumulation, as the library's accumulation of rows. -/
theorem v29_eq : Cert.ReferenceIdeal.Read.val_main_v29 (F := Ideal) r e a
    = Ideal.hostScatterAdd (scatterRowsDims 100000 128 600000
        Cert.ReferenceIdeal.Facts₀.scatter_S100000x128_S600000x1_S600000x128_1_0_0_1_wf)
          zeros (Cert.ReferenceIdeal.Read.val_main_v28 (F := Ideal) a) (Cert.ReferenceIdeal.Read.val_main_v19 (F := Ideal) r e a) :=
  by
  rw [Cert.ReferenceIdeal.Read.val_main_v29, scatterAdd_ideal, dimsR_eq, zeros27]

/-- The reference's result at (n, c), as the sum of the library's two accumulations of rows. -/
theorem reference_at (n : Fin 100000) (c : Fin 128) :
    Cert.ReferenceIdeal.Read.val_main_v30 (F := Ideal) r e a (ix2 n c)
      = Ideal.hostScatterAdd (scatterRowsDims 100000 128 600000
          Cert.ReferenceIdeal.Facts₀.scatter_S100000x128_S600000x1_S600000x128_1_0_0_1_wf)
            zeros (Cert.ReferenceIdeal.Read.val_main_v23 (F := Ideal) a) (Cert.ReferenceIdeal.Read.val_main_v9 (F := Ideal) r e a) (ix2 n c)
        + Ideal.hostScatterAdd (scatterRowsDims 100000 128 600000
          Cert.ReferenceIdeal.Facts₀.scatter_S100000x128_S600000x1_S600000x128_1_0_0_1_wf)
            zeros (Cert.ReferenceIdeal.Read.val_main_v28 (F := Ideal) a) (Cert.ReferenceIdeal.Read.val_main_v19 (F := Ideal) r e a) (ix2 n c) := by
  rw [Cert.ReferenceIdeal.Read.val_main_v30_apply, Ideal.addf_def, v24_eq, v29_eq]

variable (ha : ∀ (j : Fin 600000) (k : Fin 2), 0 ≤ (a (ix2 j k)).toInt ∧ (a (ix2 j k)).toInt < 100000)
include ha

theorem col0_range (j : Fin 600000) : 0 ≤ (col0 a (ix1 j)).toInt ∧ (col0 a (ix1 j)).toInt < 100000 := by
  rw [show col0 a (ix1 j) = a (ix2 j (0 : Fin 2)) from column_apply 0 0 rfl a _ _ j]
  exact ha j 0

theorem col1_range (j : Fin 600000) : 0 ≤ (col1 a (ix1 j)).toInt ∧ (col1 a (ix1 j)).toInt < 100000 := by
  rw [show col1 a (ix1 j) = a (ix2 j (1 : Fin 2)) from column_apply 1 1 rfl a _ _ j]
  exact ha j 1

/-- THE RESULT: under the index range the kernel's result array is the reference's. -/
theorem result_eq : kernelResult r e a = Cert.ReferenceIdeal.Read.val_main_v30 (F := Ideal) r e a := by
  funext i
  obtain ⟨n, c, rfl⟩ : ∃ (n : Fin 100000) (c : Fin 128), i = ix2 n c := ⟨i 0, i 1, eq_ix2 i⟩
  rw [kernel_at, reference_at]
  refine Cert.Bridge.Sums.scatterAdd_rows_two_halves (K := 600000) (K2 := 1200000) (by norm_num) _ _ zeros zeros_apply
    (dst a) (upd r e a) (Cert.ReferenceIdeal.Read.val_main_v23 (F := Ideal) a) (Cert.ReferenceIdeal.Read.val_main_v28 (F := Ideal) a) (Cert.ReferenceIdeal.Read.val_main_v9 (F := Ideal) r e a)
    (Cert.ReferenceIdeal.Read.val_main_v19 (F := Ideal) r e a) ?_ ?_ ?_ ?_ n c
  · -- destinations of the first 600000 rows: column 1
    intro j
    rw [show dst a (ix2 (⟨j.val, by omega⟩ : Fin 1200000) (0 : Fin 1)) = col1 a (ix1 j) from
      (colvec_apply _ _ _ _).trans (concat_left _ _ _ j)]
    exact (colvec_apply (K := 600000) (col1 a) _ j (0 : Fin 1)).symm
  · -- destinations of the last 600000 rows: column 0
    intro j
    rw [show dst a (ix2 (⟨600000 + j.val, by omega⟩ : Fin 1200000) (0 : Fin 1)) = col0 a (ix1 j) from
      (colvec_apply _ _ _ _).trans (concat_right _ _ _ j)]
    exact (colvec_apply (K := 600000) (col0 a) _ j (0 : Fin 1)).symm
  · -- the first 600000 rows: plane 0, the rows of r at column 0 times e
    intro j c'
    rw [show upd r e a (ix2 (⟨j.val, by omega⟩ : Fin 1200000) c')
        = msgs (take r (col0 a)) (take r (col1 a)) e (ix3 (0 : Fin 2) j c') from flat_plane0 _ _ j c',
      msgs_apply _ _ _ _ j c' rfl rfl,
      if_pos (show ((ix3 (0 : Fin 2) j c' : Cert.KernelIdeal.S2x600000x128.Idx) 0).val = 0 from rfl),
      take_eq_gather r (col0 a) (col0_range a ha)]
    rfl
  · -- the last 600000 rows: plane 1, the rows of r at column 1 times e
    intro j c'
    rw [show upd r e a (ix2 (⟨600000 + j.val, by omega⟩ : Fin 1200000) c')
        = msgs (take r (col0 a)) (take r (col1 a)) e (ix3 (1 : Fin 2) j c') from flat_plane1 _ _ j c',
      msgs_apply _ _ _ _ j c' rfl rfl,
      if_neg (show ¬ ((ix3 (1 : Fin 2) j c' : Cert.KernelIdeal.S2x600000x128.Idx) 0).val = 0 from Nat.one_ne_zero),
      take_eq_gather r (col1 a) (col1_range a ha)]
    rfl

end Cert.Bridge.Result

end
-- ==== Proof.lean ====
/-
  The certificate: a gather -> multiply -> scatter-add message-passing kernel against its jnp reference, equal over
  the extended reals for finite float inputs and index words in [0, 100000).

  Both programs compute, for every node n and feature c,
      out[n, c] = sum over edges j with a[j, 1] = n of r[a[j, 0], c] * e[j, c]
                + sum over edges j with a[j, 0] = n of r[a[j, 1], c] * e[j, c].
  The kernel gathers the rows of r at both columns of a (jnp.take, which fills rows at out-of-range indices with a
  fill pattern: in range it never fills), multiplies both by the edge features in one pallas_call that packs the two
  products into a [2, 600000, 128] array, flattens it to 1200000 rows and accumulates them in ONE pass at the
  destinations [a[:, 1] ; a[:, 0]]. The reference accumulates the two products separately and adds the two arrays.
  An accumulation from zero read at an entry is a finite sum over the update rows; the kernel's sum over 1200000 rows
  splits at 600000 into the reference's two sums.

  The frames of the two kernel programs are the generated frame certificates; the reference's frame and value are its
  generated run; the idealization ledger is empty. Written by hand: what the host operations before the region leave
  (the takes, the index columns), the region's output array from its blocks, the host operations after the region, the
  decoding of the index-range precondition, and the equality of the two results.
-/
import proofs.«413679_j14482629722854_3_alg».proof.Defs
import proofs.«413679_j14482629722854_3_alg».proof.Proof.Gen.Kernel
import proofs.«413679_j14482629722854_3_alg».proof.Proof.Gen.Kernel.Skeleton
import proofs.«413679_j14482629722854_3_alg».proof.Proof.Gen.Kernel.Launch
import proofs.«413679_j14482629722854_3_alg».proof.Proof.Gen.Kernel.Points
import proofs.«413679_j14482629722854_3_alg».proof.Proof.Gen.Kernel.Frame
import proofs.«413679_j14482629722854_3_alg».proof.Proof.Gen.KernelIdeal
import proofs.«413679_j14482629722854_3_alg».proof.Proof.Gen.KernelIdeal.Skeleton
import proofs.«413679_j14482629722854_3_alg».proof.Proof.Gen.KernelIdeal.Launch
import proofs.«413679_j14482629722854_3_alg».proof.Proof.Gen.KernelIdeal.Points
import proofs.«413679_j14482629722854_3_alg».proof.Proof.Gen.KernelIdeal.Frame
import proofs.«413679_j14482629722854_3_alg».proof.Proof.Gen.ReferenceIdeal
import proofs.«413679_j14482629722854_3_alg».proof.Proof.Gen.ReferenceIdeal.Run
import proofs.«413679_j14482629722854_3_alg».proof.Proof.Gen.ReferenceIdeal.Read
import proofs.«413679_j14482629722854_3_alg».proof.Proof.Gen.Pre_finite_inputs
import proofs.«413679_j14482629722854_3_alg».proof.Proof.InRange
import proofs.«413679_j14482629722854_3_alg».proof.Proof.Result
import Idealize.ShloMosaic.Adequacy
import Idealize.ShloMosaic.Init

noncomputable section

namespace Cert.Proof

open Idealize.ShloMosaic Idealize.SL.Sem

/-! ## The frames and the idealization -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal values. -/
theorem preserves : Cert.preserves_Kernel_KernelIdeal := trivial

/-! ## The kernel program's run, its result named -/

/-- Every execution of the kernel program ends with its result at the one accumulation of the packed messages
    (`Cert.Bridge.Result.kernelResult` of the argument arrays) and the arguments unchanged: the generated frame run,
    with the result buffer read through the host operations after the region, the region's output array read from
    its blocks, and the buffers the region found read through the host operations before it. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v11)
            = Cert.Bridge.Result.kernelResult (F := Ideal)
                (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)) := by
  refine (θ_run Cert.KernelIdeal.defs _ _).mono (fun r h c => ⟨?_, ?_, ?_, ?_⟩) (Cert.KernelIdeal.Gen.run_main m ρ)
  · refine ((h c).2 Cert.KernelIdeal.main_v11
      (Pipeline.mem_restRefs_of Cert.KernelIdeal.main_v11 (by decide) (by decide))).trans ?_
    refine (Cert.KernelIdeal.Bridge.result_eq m c).trans ?_
    rw [Cert.KernelIdeal.Blocks.msgs_final m c, Cert.KernelIdeal.Bridge.V_main_v3 m c,
      Cert.KernelIdeal.Bridge.V_main_v1 m c, Cert.KernelIdeal.Bridge.V_main_v4 m c,
      Cert.KernelIdeal.Bridge.V_main_v5 m c, Cert.KernelIdeal.Gen.V_main_arg1 m c]
  · exact ((h c).2 Cert.KernelIdeal.main_arg0
      (Pipeline.mem_restRefs_of Cert.KernelIdeal.main_arg0 (by decide) (by decide))).trans
        (Cert.KernelIdeal.Gen.W_main_arg0 m (Cert.KernelIdeal.Gen.dats m) c)
  · exact ((h c).1 2).trans (((Cert.KernelIdeal.Gen.dats m 0 c).arrAt_in 2 rfl _).trans
      ((Cert.KernelIdeal.Gen.A_eq m c 2).trans (Cert.KernelIdeal.Gen.V_main_arg1 m c)))
  · exact ((h c).2 Cert.KernelIdeal.main_arg2
      (Pipeline.mem_restRefs_of Cert.KernelIdeal.main_arg2 (by decide) (by decide))).trans
        (Cert.KernelIdeal.Gen.W_main_arg2 m (Cert.KernelIdeal.Gen.dats m) c)

/-! ## The two programs agree -/

/-- From memories that agree on the arguments both programs run, and the reference's result (its generated run's
    term, the stage `val_main_v30` of the generated reading) is the kernel's: the precondition, decoded at each
    element of the index array, puts every index word in [0, 100000), which is what the equality of the two results
    asks. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v30_eq _ _ _).trans ?_
  exact (Cert.Bridge.Result.result_eq _ _ _
    (fun j k => Cert.Bridge.InRange.index_range _ _ _ (hpre c) j k)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
